-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x1024 : Shape := ⟨2, ![1024, 1024]⟩
abbrev S1024x16x64 : Shape := ⟨3, ![1024, 16, 64]⟩
abbrev S1024x16 : Shape := ⟨2, ![1024, 16]⟩
abbrev S1024x16x1 : Shape := ⟨3, ![1024, 16, 1]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v50 : BitVec 1 := Scalar.cmpi .eq arg2 c3_i32
  let v51 : BitVec 32 := Scalar.extui v50
  let c0_i32_18 : BitVec 32 := 0#32
  let v52 : BitVec 1 := Scalar.cmpi .ne v51 c0_i32_18
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1024x16x64 : S1024x1024.ShapeCasts S1024x16x64
  reduces_S1024x16x64_S1024x16 : S1024x16x64.Reduces [2] S1024x16
  shapeCasts_S1024x16_S1024x16x1 : S1024x16.ShapeCasts S1024x16x1
  broadcasts_S1024x16x1_S1024x16x64 : S1024x16x1.Broadcasts S1024x16x64
  shapeCasts_S1024x16x64_S1024x1024 : S1024x16x64.ShapeCasts S1024x1024
  bitsLt_bf16_f32 : FTy.bits .bf16 < FTy.bits .f32
  transposes_S1024x1024_p1_0_S1024x1024 : S1024x1024.Transposes [1, 0] S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩
abbrev S4096x64x64 : Shape := ⟨3, ![4096, 64, 64]⟩
abbrev S4096x64 : Shape := ⟨2, ![4096, 64]⟩
abbrev S4096x64x1 : Shape := ⟨3, ![4096, 64, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x64x64, .f32⟩
  | .hbm, ⟨3, _⟩ => ⟨S8192x64x64, .f32⟩
  | .hbm, ⟨4, _⟩ => ⟨S_, .f32⟩
  | .hbm, ⟨5, _⟩ => ⟨S8192x64, .f32⟩
  | .hbm, ⟨6, _⟩ => ⟨S8192x64x1, .f32⟩
  | .hbm, ⟨7, _⟩ => ⟨S_, .f32⟩
  | .hbm, ⟨8, _⟩ => ⟨S8192x64x1, .f32⟩
  | .hbm, ⟨9, _⟩ => ⟨S8192x64x1, .f32⟩
  | .hbm, ⟨10, _⟩ => ⟨S_, .f32⟩
  | .hbm, ⟨11, _⟩ => ⟨S8192x64x1, .f32⟩
  | .hbm, ⟨12, _⟩ => ⟨S8192x64x1, .f32⟩
  | .hbm, ⟨13, _⟩ => ⟨S8192x64x64, .f32⟩
  | .hbm, ⟨14, _⟩ => ⟨S8192x64x64, .f32⟩
  | .hbm, ⟨15, _⟩ => ⟨S8192x64x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x64x64, .f32⟩
  | .hbm, ⟨20, _⟩ => ⟨S8192x64x64, .f32⟩
  | .hbm, ⟨21, _⟩ => ⟨S_, .f32⟩
  | .hbm, ⟨22, _⟩ => ⟨S8192x64x64, .f32⟩
  | .hbm, ⟨23, _⟩ => ⟨S8192x64x64, .f32⟩
  | .hbm, ⟨24, _⟩ => ⟨S8192x64x64, .f32⟩
  | .hbm, ⟨25, _⟩ => ⟨S8192x64x64, .f32⟩
  | .hbm, ⟨26, _⟩ => ⟨S8192x4096, .f32⟩
  | .hbm, ⟨27, _⟩ => ⟨S4096x64x64, .f32⟩
  | .hbm, ⟨28, _⟩ => ⟨S4096x64x64, .f32⟩
  | .hbm, ⟨29, _⟩ => ⟨S_, .f32⟩
  | .hbm, ⟨30, _⟩ => ⟨S4096x64, .f32⟩
  | .hbm, ⟨31, _⟩ => ⟨S4096x64x1, .f32⟩
  | .hbm, ⟨32, _⟩ => ⟨S_, .f32⟩
  | .hbm, ⟨33, _⟩ => ⟨S4096x64x1, .f32⟩
  | .hbm, ⟨34, _⟩ => ⟨S4096x64x1, .f32⟩
  | .hbm, ⟨35, _⟩ => ⟨S_, .f32⟩
  | .hbm, ⟨36, _⟩ => ⟨S4096x64x1, .f32⟩
  | .hbm, ⟨37, _⟩ => ⟨S4096x64x1, .f32⟩
  | .hbm, ⟨38, _⟩ => ⟨S4096x64x64, .f32⟩
  | .hbm, ⟨39, _⟩ => ⟨S4096x64x64, .f32⟩
  | .hbm, ⟨40, _⟩ => ⟨S4096x64x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096x64x64, .f32⟩
  | .hbm, ⟨45, _⟩ => ⟨S4096x64x64, .f32⟩
  | .hbm, ⟨46, _⟩ => ⟨S_, .f32⟩
  | .hbm, ⟨47, _⟩ => ⟨S4096x64x64, .f32⟩
  | .hbm, ⟨48, _⟩ => ⟨S4096x64x64, .f32⟩
  | .hbm, ⟨49, _⟩ => ⟨S4096x64x64, .f32⟩
  | .hbm, ⟨50, _⟩ => ⟨S4096x64x64, .f32⟩
  | .hbm, ⟨51, _⟩ => ⟨S4096x4096, .f32⟩
  | .hbm, ⟨52, _⟩ => ⟨S4096x4096, .f32⟩
  | .hbm, ⟨53, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]

class Facts₀ : Prop where
  shapeCasts_S8192x4096_S8192x64x64 : S8192x4096.ShapeCasts S8192x64x64
  reducesTo_S8192x64x64_S8192x64_d2 : S8192x64x64.ReducesTo [2] S8192x64
  h_S_ : 0 < S_.numel
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S8192x64x1_S8192x64x64_0_1_2 : S8192x64x1.BroadcastsInDim S8192x64x64 (![0, 1, 2] : Fin 3 → Fin S8192x64x64.rank)
  bcast_S_S8192x64x64 : S_.BroadcastsInDim S8192x64x64 (![] : Fin 0 → Fin S8192x64x64.rank)
  shapeCasts_S8192x64x64_S8192x4096 : S8192x64x64.ShapeCasts S8192x4096
  shapeCasts_S4096x4096_S4096x64x64 : S4096x4096.ShapeCasts S4096x64x64
  reducesTo_S4096x64x64_S4096x64_d2 : S4096x64x64.ReducesTo [2] S4096x64
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S4096x64x1_S4096x64x64_0_1_2 : S4096x64x1.BroadcastsInDim S4096x64x64 (![0, 1, 2] : Fin 3 → Fin S4096x64x64.rank)
  bcast_S_S4096x64x64 : S_.BroadcastsInDim S4096x64x64 (![] : Fin 0 → Fin S4096x64x64.rank)
  shapeCasts_S4096x64x64_S4096x4096 : S4096x64x64.ShapeCasts S4096x4096
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one grid step leaves behind, as a pure function of what it read.

  Write x for the step's 1024 x 1024 tile of the first argument, w for its tile of the second, and a for
  what the accumulator held when the step began. Every step stores into the accumulator the value
  `step x w a` := a + T(x) * T(w)^T, where T treats a tile group by group (the payload `k0_pay1` over
  `k0_pay3 x`, `k0_pay6 w`, `k0_pay7 w`). The first step of a run of four begins from the zero tile
  (`k0_pay2`) instead of an old accumulator; the last step also copies the new accumulator to the
  output tile. The lemmas below read each case's stored pieces back as that one function.
-/
import proofs.«129292_j1176821039703_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem hz : (![0, 0] : Fin 2 → Nat) = fun _ => 0 := by funext a; fin_cases a <;> rfl

/-- What a step stores into the accumulator, from its two tiles and the accumulator it found. -/
def step (x w a : Vec F S1024x1024 .f32) : Vec F S1024x1024 .f32 :=
  k0_pay1 (k0_pay3 x) (k0_pay6 w) (k0_pay7 w) a

/-- A first step: the accumulator ends at `step` from the zero tile. -/
theorem sout_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) :
    sout0_A_0 c i arg3 harg3 arg4 harg4 arg5 harg5 arg6 harg6 hc0 hc1 x0 x1 = step x0 x1 k0_pay2 := by
  unfold sout0_A_0 step
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz]
  simp only [View.readAt_eq_ld, harg3.read_unread, harg4.read_unread, harg6.read_unread, View.ld_unit_zero (S := S1024x1024) hz, View.readCov_unit_zero (S := S1024x1024) _ hz]

/-- A middle step: the accumulator ends at `step` from what the step before left. -/
theorem sout_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs0 : Vec F S1024x1024 .f32) :
    sout0_B_0 c i arg3 harg3 arg4 harg4 arg5 harg5 arg6 harg6 hc0 hc1 x0 x1 xs0 = step x0 x1 xs0 := by
  unfold sout0_B_0 step
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz, View.readCov_unit_zero (S := S1024x1024) _ hz]

/-- A last step: the accumulator ends at `step` from what the step before left, -/
theorem sout_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs0 : Vec F S1024x1024 .f32) :
    sout0_C_0 c i arg3 harg3 arg4 harg4 arg5 harg5 arg6 harg6 hc0 hc1 x0 x1 xs0 = step x0 x1 xs0 := by
  unfold sout0_C_0 step
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz, View.readCov_unit_zero (S := S1024x1024) _ hz]

/-- and the output tile holds the same. -/
theorem out_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs0 : Vec F S1024x1024 .f32) :
    out0_C_2 c i arg3 harg3 arg4 harg4 arg5 harg5 arg6 harg6 hc0 hc1 x0 x1 xs0 = step x0 x1 xs0 := by
  unfold out0_C_2 step
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz, View.readCov_unit_zero (S := S1024x1024) _ hz]

end Cert.KernelIdeal.Pieces

end
-- ==== Proof.LibGroupQuant.lean ====
/-
  A row treated in groups of 64 entries, and how the two spellings of that treatment read at an index.

  THE TREATMENT. A group's step is its largest magnitude divided by 7, but at least the binary32 value
  nearest 1e-8; an entry v of the group becomes  clip(roundeven(v / step), -8, 7) * step  (symmetric
  4-bit quantization followed by dequantization). `quantRow` is a whole row so treated, at a column.

  THE TWO SPELLINGS, over an array [R, C] with C = 64 * NG seen as [R, NG, 64]: a vector program
  takes the group maximum by a lane reduction into [R, NG], casts it to the column [R, NG, 1] and
  broadcasts along the lanes; a host program reduces over axis 2 and uses two broadcast_in_dim.
  Each lemma below reads ONE of those operations at explicit coordinates (r, g, l), generic in R and
  NG, so that a proof over literal shapes rewrites with them one operation at a time. Both group
  maxima come out as the same fold of `max` from -∞ over the 64 lanes (`groupAbsMax`).
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

noncomputable section

namespace Cert.GroupQuant

open Idealize.ShloMosaic Idealize.ShloMosaic.ValueIdx

/-! ## The treatment, on plain functions -/

/-- The largest magnitude among the 64 entries of one group, folded from -∞. -/
def groupAbsMax (f : Fin 64 → Ideal .f32) : Ideal .f32 :=
  (Finset.univ : Finset (Fin 64)).fold max (Ideal.ofBits .f32 0xFF800000#32) (fun l => max (f l) (-(f l)))

/-- A group's step: its largest magnitude over 7, and at least the floor. -/
def groupStep (f : Fin 64 → Ideal .f32) : Ideal .f32 :=
  max (Ideal.div (groupAbsMax f) (Ideal.ofBits .f32 0x40E00000#32)) (Ideal.ofBits .f32 0x322BCC77#32)

/-- One entry at step `s`: `v / s` rounded to the nearest integer (ties to even), clipped into [-8, 7], times `s`. -/
def quantAt (s v : Ideal .f32) : Ideal .f32 :=
  min (Ideal.ofBits .f32 0x40E00000#32)
      (max (Ideal.ofBits .f32 0xC1000000#32) (Ideal.liftRound Ideal.roundHalfEven (Ideal.div v s))) * s

/-- Lane `l` of the group that column `c` lies in. -/
def laneCol {C : Nat} (hC : C % 64 = 0) (c : Fin C) (l : Fin 64) : Fin C :=
  ⟨64 * (c.val / 64) + l.val, by have := c.isLt; have := l.isLt; omega⟩

/-- A row treated group by group, at column `c`. -/
def quantRow {C : Nat} (hC : C % 64 = 0) (row : Fin C → Ideal .f32) (c : Fin C) : Ideal .f32 :=
  quantAt (groupStep fun l => row (laneCol hC c l)) (row c)

/-! ## Columns, groups and lanes -/

variable {R NG C : Nat}

/-- Lane `l` of group `g`, as a column. -/
def laneOf (hC : C = 64 * NG) (g : Fin NG) (l : Fin 64) : Fin C :=
  ⟨64 * g.val + l.val, by have := g.isLt; have := l.isLt; omega⟩

/-- The group a column lies in, and its lane there. -/
def groupOf (hC : C = 64 * NG) (c : Fin C) : Fin NG := ⟨c.val / 64, by have := c.isLt; omega⟩
def laneIn (c : Fin C) : Fin 64 := ⟨c.val % 64, Nat.mod_lt _ (by decide)⟩

theorem laneOf_groupOf (hC : C = 64 * NG) (hC' : C % 64 = 0) (c : Fin C) (l : Fin 64) :
    laneOf hC (groupOf hC c) l = laneCol hC' c l := rfl

theorem laneOf_groupOf_laneIn (hC : C = 64 * NG) (c : Fin C) : laneOf hC (groupOf hC c) (laneIn c) = c :=
  Fin.ext (by show 64 * (c.val / 64) + c.val % 64 = c.val; omega)

theorem laneCol_laneIn (hC' : C % 64 = 0) (c : Fin C) : laneCol hC' c (laneIn c) = c :=
  Fin.ext (by show 64 * (c.val / 64) + c.val % 64 = c.val; omega)

/-! ## The layout operations at (r, g, l) -/

/-- The array seen in groups: entry (r, g, l) is entry (r, 64 g + l). -/
theorem castIn_at {α : Type} (hC : C = 64 * NG) (x : (⟨2, ![R, C]⟩ : Shape).Idx → α)
    (h : (⟨2, ![R, C]⟩ : Shape).ShapeCasts ⟨3, ![R, NG, 64]⟩) (r : Fin R) (g : Fin NG) (l : Fin 64) :
    shapeCast ⟨3, ![R, NG, 64]⟩ x h (ix3 r g l) = x (ix2 r (laneOf hC g l)) :=
  shapeCast_apply x h (ix3 r g l) (ix2 r (laneOf hC g l)) (by
    rw [Shape.rowMajor_val_two, Shape.rowMajor_val_three]
    show r.val * C + (64 * g.val + l.val) = (r.val * NG + g.val) * 64 + l.val
    subst hC; ring)

/-- The grouped array seen flat again: entry (r, c) is entry (r, c / 64, c % 64). -/
theorem castOut_at {α : Type} (hC : C = 64 * NG) (y : (⟨3, ![R, NG, 64]⟩ : Shape).Idx → α)
    (h : (⟨3, ![R, NG, 64]⟩ : Shape).ShapeCasts ⟨2, ![R, C]⟩) (r : Fin R) (c : Fin C) :
    shapeCast ⟨2, ![R, C]⟩ y h (ix2 r c) = y (ix3 r (groupOf hC c) (laneIn c)) :=
  shapeCast_apply y h (ix2 r c) (ix3 r (groupOf hC c) (laneIn c)) (by
    rw [Shape.rowMajor_val_two, Shape.rowMajor_val_three]
    show (r.val * NG + c.val / 64) * 64 + c.val % 64 = r.val * C + c.val
    subst hC
    have e : c.val / 64 * 64 + c.val % 64 = c.val := by omega
    calc (r.val * NG + c.val / 64) * 64 + c.val % 64
        = r.val * (64 * NG) + (c.val / 64 * 64 + c.val % 64) := by ring
      _ = r.val * (64 * NG) + c.val := by rw [e])

/-- A vector [R, NG] cast to the column [R, NG, 1]. -/
theorem col_at {α : Type} (u : (⟨2, ![R, NG]⟩ : Shape).Idx → α)
    (h : (⟨2, ![R, NG]⟩ : Shape).ShapeCasts ⟨3, ![R, NG, 1]⟩) (r : Fin R) (g : Fin NG) (z : Fin 1) :
    shapeCast ⟨3, ![R, NG, 1]⟩ u h (ix3 r g z) = u (ix2 r g) :=
  shapeCast_apply u h (ix3 r g z) (ix2 r g) (by
    rw [Shape.rowMajor_val_two, Shape.rowMajor_val_three]
    show r.val * NG + g.val = (r.val * NG + g.val) * 1 + z.val
    have : z.val = 0 := by have := z.isLt; omega
    rw [this]; ring)

/-- The column [R, NG, 1] broadcast along the lanes (the vector program's `vector.broadcast`). -/
theorem lanes_at {α : Type} (s : (⟨3, ![R, NG, 1]⟩ : Shape).Idx → α)
    (h : (⟨3, ![R, NG, 1]⟩ : Shape).Broadcasts ⟨3, ![R, NG, 64]⟩) (r : Fin R) (g : Fin NG) (l : Fin 64) :
    broadcastTo ⟨3, ![R, NG, 64]⟩ s h (ix3 r g l) = s (ix3 r g (0 : Fin 1)) :=
  broadcastTo_apply s h (ix3 r g l) (ix3 r g (0 : Fin 1)) (fun a => by
    match a with
    | ⟨0, _⟩ => show r.val = if R = 1 then 0 else r.val; have := r.isLt; split <;> omega
    | ⟨1, _⟩ => show g.val = if NG = 1 then 0 else g.val; have := g.isLt; split <;> omega
    | ⟨2, _⟩ => show (0 : Nat) = if (1 : Nat) = 1 then 0 else l.val; rfl)

/-- The host's `broadcast_in_dim` of [R, NG] to the column [R, NG, 1], dims [0, 1]. -/
theorem hostCol_at {α : Type} (u : (⟨2, ![R, NG]⟩ : Shape).Idx → α)
    (h : (⟨2, ![R, NG]⟩ : Shape).BroadcastsInDim ⟨3, ![R, NG, 1]⟩ (![0, 1] : Fin 2 → Fin 3)) (r : Fin R) (g : Fin NG) (z : Fin 1) :
    broadcastInDim ⟨3, ![R, NG, 1]⟩ (![0, 1] : Fin 2 → Fin 3) h u (ix3 r g z) = u (ix2 r g) :=
  broadcastInDim_apply _ h u (ix3 r g z) (ix2 r g) (fun a => by
    match a with
    | ⟨0, _⟩ => show r.val = if R = 1 then 0 else r.val; have := r.isLt; split <;> omega
    | ⟨1, _⟩ => show g.val = if NG = 1 then 0 else g.val; have := g.isLt; split <;> omega)

/-- The host's `broadcast_in_dim` of the column [R, NG, 1] along the lanes, dims [0, 1, 2]. -/
theorem hostLanes_at {α : Type} (s : (⟨3, ![R, NG, 1]⟩ : Shape).Idx → α)
    (h : (⟨3, ![R, NG, 1]⟩ : Shape).BroadcastsInDim ⟨3, ![R, NG, 64]⟩ (![0, 1, 2] : Fin 3 → Fin 3)) (r : Fin R) (g : Fin NG) (l : Fin 64) :
    broadcastInDim ⟨3, ![R, NG, 64]⟩ (![0, 1, 2] : Fin 3 → Fin 3) h s (ix3 r g l) = s (ix3 r g (0 : Fin 1)) :=
  broadcastInDim_apply _ h s (ix3 r g l) (ix3 r g (0 : Fin 1)) (fun a => by
    match a with
    | ⟨0, _⟩ => show r.val = if R = 1 then 0 else r.val; have := r.isLt; split <;> omega
    | ⟨1, _⟩ => show g.val = if NG = 1 then 0 else g.val; have := g.isLt; split <;> omega
    | ⟨2, _⟩ => show (0 : Nat) = if (1 : Nat) = 1 then 0 else l.val; rfl)

/-- The host's `broadcast_in_dim` of a scalar, dims []: the scalar everywhere. -/
theorem hostScalar_at {α : Type} {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 (fun a => a.elim0)

/-! ## The group maximum, in both spellings -/

/-- The reduced index (r, g) with lane `l` put back is (r, g, l). -/
theorem lift_ix3 (h : (⟨3, ![R, NG, 64]⟩ : Shape).Reduces [2] ⟨2, ![R, NG]⟩) (r : Fin R) (g : Fin NG) (l : Fin 64) :
    h.lift (ix2 r g) l = ix3 r g l := by
  funext a; apply Fin.ext
  match a with
  | ⟨0, _⟩ => rfl
  | ⟨1, _⟩ => rfl
  | ⟨2, _⟩ => rfl

/-- The vector program's lane reduction `multi_reduction <maximumf>` of the magnitudes, from -∞, at (r, g). -/
theorem vecAbsMax_at (y : FVec Ideal ⟨3, ![R, NG, 64]⟩ .f32)
    (h : (⟨3, ![R, NG, 64]⟩ : Shape).Reduces [2] ⟨2, ![R, NG]⟩) (hφ : FKind.Formats .f32)
    (hacc : (0xFF800000#32 : BitVec 32) = 0xFF800000#32) (r : Fin R) (g : Fin NG) :
    multiReduction .maximumf [2] ⟨2, ![R, NG]⟩ (absf y) 0xFF800000#32 h hφ hacc (ix2 r g)
      = groupAbsMax (fun l => y (ix3 r g l)) := by
  refine (Ideal.multiReduction_maximumf_single (absf y) 0xFF800000#32 h hφ hacc (ix2 r g)).trans ?_
  unfold groupAbsMax
  refine congrArg (fun f => Finset.fold max (Ideal.ofBits .f32 0xFF800000#32) f (Finset.univ : Finset (Fin 64))) ?_
  funext l
  exact congrArg (fun i => FloatOps.absf (y i)) (lift_ix3 h r g l)

/-- The host's `reduce` with a maximum body over axis 2 of the magnitudes, from -∞, at (r, g). -/
theorem hostAbsMax_at (y : FVec Ideal ⟨3, ![R, NG, 64]⟩ .f32)
    (h' : (⟨3, ![R, NG, 64]⟩ : Shape).ReducesTo [2] ⟨2, ![R, NG]⟩) (h : (⟨3, ![R, NG, 64]⟩ : Shape).Reduces [2] ⟨2, ![R, NG]⟩)
    (hu : 0 < (⟨0, ![]⟩ : Shape).numel) (r : Fin R) (g : Fin NG) :
    Host.reduce (FloatOps.maximumf (F := Ideal) (φ := .f32)) (Host.absf y) (constant (F := Ideal) ⟨0, ![]⟩ .f32 0xFF800000#32) h' hu (ix2 r g)
      = groupAbsMax (fun l => y (ix3 r g l)) := by
  rw [Host.reduce_eq_fold_single (FloatOps.maximumf (F := Ideal) (φ := .f32)) _ _ h' h hu]
  unfold groupAbsMax
  refine congrArg (fun f => Finset.fold max (Ideal.ofBits .f32 0xFF800000#32) f (Finset.univ : Finset (Fin 64))) ?_
  funext l
  exact congrArg (fun i => FloatOps.hostAbsf (y i)) (lift_ix3 h r g l)

end Cert.GroupQuant

end
-- ==== Proof.QuantSpec.lean ====
/-
  The mathematics both programs compute, stated once over plain functions.

  Every row of an array is cut into groups of 64 consecutive entries. A group's STEP is its largest
  magnitude divided by 7, but never below the binary32 value nearest 1e-8. An entry v of the group is
  replaced by  clip(roundeven(v / step), -8, 7) * step.  Call the array so treated Q(a). The result is
  the product  Q(x) * Q(w)^T : entry (t, o) is the sum over k of Q(x)(t, k) * Q(w)(o, k).

  A group never straddles a multiple of 1024 (64 divides 1024), so treating a 1024-wide tile of a
  row by itself gives the same entries as treating the whole row (`quantRow_tile`), and a sum over
  4096 columns is the sum over the four tiles of the sums over each tile's 1024 columns
  (`sum_tiles`). Both facts use only that + on the extended reals is commutative and associative;
  nothing here needs an entry to be finite.
-/
import proofs.«129292_j1176821039703_1_alg».proof.Proof.LibGroupQuant

noncomputable section

namespace Cert.QuantSpec

open Idealize.ShloMosaic Idealize.ShloMosaic.ValueIdx Cert.GroupQuant

theorem h4096 : 4096 % 64 = 0 := by decide
theorem h1024 : 1024 % 64 = 0 := by decide

/-- Column `q` of tile `s` of a 4096-wide row. -/
def tileCol (s : Fin 4) (q : Fin 1024) : Fin 4096 := ⟨1024 * s.val + q.val, by have := s.isLt; have := q.isLt; omega⟩

/-- Treating tile `s` of a row by itself gives the row's treated entries on that tile: the group of
    column `1024 s + q` is the group of `q` inside the tile, shifted by `1024 s`. -/
theorem quantRow_tile (row : Fin 4096 → Ideal .f32) (s : Fin 4) (q : Fin 1024) :
    quantRow h1024 (fun q' => row (tileCol s q')) q = quantRow h4096 row (tileCol s q) := by
  unfold quantRow
  have e : (fun l => row (tileCol s (laneCol h1024 q l))) = fun l => row (laneCol h4096 (tileCol s q) l) := by
    funext l
    refine congrArg row (Fin.ext ?_)
    show 1024 * s.val + (64 * (q.val / 64) + l.val) = 64 * ((1024 * s.val + q.val) / 64) + l.val
    have := q.isLt; omega
  rw [e]

/-- A sum over the 4096 columns is the sum over the four tiles of each tile's 1024 columns. -/
theorem sum_tiles {M : Type*} [AddCommMonoid M] (f : Fin 4096 → M) :
    ∑ k : Fin 4096, f k = ∑ s : Fin 4, ∑ q : Fin 1024, f (tileCol s q) := by
  rw [← Finset.sum_product', Finset.univ_product_univ]
  refine (Fintype.sum_equiv (finProdFinEquiv (m := 4) (n := 1024)) (fun p => f (tileCol p.1 p.2)) f (fun p => ?_)).symm
  refine congrArg f (Fin.ext ?_)
  show 1024 * p.1.val + p.2.val = p.2.val + 1024 * p.1.val
  omega

/-- THE RESULT: entry (t, o) is the sum over the 4096 columns of the treated row t of `x` times the treated row o of `w`. -/
def result (x : (⟨2, ![8192, 4096]⟩ : Shape).Idx → Ideal .f32) (w : (⟨2, ![4096, 4096]⟩ : Shape).Idx → Ideal .f32) :
    (⟨2, ![8192, 4096]⟩ : Shape).Idx → Ideal .f32 :=
  fun j => ∑ k : Fin 4096, quantRow h4096 (fun c => x (ix2 (j 0) c)) k * quantRow h4096 (fun c => w (ix2 (j 1) c)) k

/-- One tile's contribution to a 1024 x 1024 block of the result: rows `p` of a tile of `x` and `c` of a tile of `w`,
    each treated by itself, multiplied and summed over the tile's 1024 columns. -/
def tileProduct (xb wb : (⟨2, ![1024, 1024]⟩ : Shape).Idx → Ideal .f32) :
    (⟨2, ![1024, 1024]⟩ : Shape).Idx → Ideal .f32 :=
  fun j => ∑ q : Fin 1024, quantRow h1024 (fun q' => xb (ix2 (j 0) q')) q * quantRow h1024 (fun q' => wb (ix2 (j 1) q')) q

end Cert.QuantSpec

end
-- ==== Proof.TileValue.lean ====
/-
  The arithmetic of one grid step, read at an index over the extended reals.

  A step holds a 1024 x 1024 tile x of the first argument and a tile w of the second. Each is treated
  group by group along its rows (16 groups of 64 per row); the change to bf16 is the identity here.
  The step adds to the accumulator the product of the treated x with the transpose of the treated w:
  at (p, c) the sum over the tile's 1024 columns q of  T(x)(p, q) * T(w)(c, q).
-/
import proofs.«129292_j1176821039703_1_alg».proof.Proof.Gen.KernelIdeal.Skeleton
import proofs.«129292_j1176821039703_1_alg».proof.Proof.LibGroupQuant
import proofs.«129292_j1176821039703_1_alg».proof.Proof.QuantSpec
import Idealize.ShloMosaic.PureOps.Ideal.Laws
import Idealize.ShloMosaic.Lib.Pipeline.Value
import Idealize.ShloMosaic.Lib.ValueIdx

noncomputable section

namespace Cert.KernelIdeal.TileValue

open Cert.KernelIdeal Cert.KernelIdeal.Gen Idealize.ShloMosaic Idealize.ShloMosaic.ValueIdx Cert.GroupQuant Cert.QuantSpec

theorem h16 : 1024 = 64 * 16 := rfl

/-- Rounding to the nearest even integer, at an index. -/
theorem roundeven_at {s : Shape} (a : FVec Ideal s .f32) (i : s.Idx) :
    roundeven a i = Ideal.liftRound Ideal.roundHalfEven (a i) := rfl

/-- The step of group g of row p of a tile (the second tile's chain: `k0_pay5`). -/
theorem pay5_at (v : Vec Ideal S1024x1024 .f32) (p : Fin 1024) (g : Fin 16) :
    k0_pay5 v (ix3 p g (0 : Fin 1)) = groupStep (fun l => v (ix2 p (laneOf h16 g l))) := by
  unfold k0_pay5 k0_pay4
  dsimp only
  rw [maximumf_apply, divf_apply, broadcast_apply, broadcast_apply, col_at, vecAbsMax_at]
  unfold groupStep
  simp only [castIn_at h16]
  rfl

/-- The second tile treated, before the final product with its step: `k0_pay6` at (p, g, l) is the clipped rounded quotient. -/
theorem pay6_at (v : Vec Ideal S1024x1024 .f32) (p : Fin 1024) (g : Fin 16) (l : Fin 64) :
    k0_pay6 v (ix3 p g l) * k0_pay7 v (ix3 p g l)
      = quantAt (groupStep (fun l' => v (ix2 p (laneOf h16 g l')))) (v (ix2 p (laneOf h16 g l))) := by
  unfold k0_pay6 k0_pay7 k0_pay4
  dsimp only
  rw [minimumf_apply, maximumf_apply, broadcast_apply, broadcast_apply, roundeven_at, divf_apply, lanes_at, pay5_at, castIn_at h16]
  rfl

/-- The first tile treated (`k0_pay3`), at (p, q): row p of the tile treated group by group, at column q. -/
theorem pay3_at (v : Vec Ideal S1024x1024 .f32) (p q : Fin 1024) :
    k0_pay3 v (ix2 p q) = quantRow h1024 (fun q' => v (ix2 p q')) q := by
  unfold k0_pay3
  dsimp only
  rw [truncf_apply, castOut_at h16, mulf_apply, minimumf_apply, maximumf_apply, broadcast_apply, broadcast_apply, roundeven_at, divf_apply,
    lanes_at, maximumf_apply, divf_apply, broadcast_apply, broadcast_apply, col_at, vecAbsMax_at, castIn_at h16]
  unfold quantRow quantAt groupStep
  simp only [castIn_at h16, laneOf_groupOf h16 h1024, laneCol_laneIn h1024]
  try rfl

/-! ## The product of the two treated tiles -/

theorem lhs_step_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_step_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_step_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_step_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into a zero accumulator, at (p, c): the sum over the contracted column q of the left
    operand at (p, q) times the right operand at (q, c). -/
theorem matmul_at (l r : FVec Ideal S1024x1024 .bf16) (p c : Fin 1024) :
    matmul dot_S1024x1024_S1024x1024_S1024x1024_1_0_0_1_n_n none l r (constant S1024x1024 .f32 0x00000000#32) (ix2 p c)
      = ∑ q : Fin 1024, l (ix2 p q) * r (ix2 q c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun q _ => ?_
  have hk := contrEquiv1_symm_val dot_S1024x1024_S1024x1024_S1024x1024_1_0_0_1_n_n 1024 rfl rfl q
  have el : dot_S1024x1024_S1024x1024_S1024x1024_1_0_0_1_n_n.lhsIdx (ix2 p c) ((contrEquiv1 dot_S1024x1024_S1024x1024_S1024x1024_1_0_0_1_n_n 1024 rfl rfl).symm q) = ix2 p q := funext fun a => Fin.ext (by
    match a with
    | ⟨0, _⟩ => exact lhs_step_0 _ _
    | ⟨1, _⟩ => exact (lhs_step_1 _ _).trans hk)
  have er : dot_S1024x1024_S1024x1024_S1024x1024_1_0_0_1_n_n.rhsIdx (ix2 p c) ((contrEquiv1 dot_S1024x1024_S1024x1024_S1024x1024_1_0_0_1_n_n 1024 rfl rfl).symm q) = ix2 q c := funext fun a => Fin.ext (by
    match a with
    | ⟨0, _⟩ => exact (rhs_step_0 _ _).trans hk
    | ⟨1, _⟩ => exact rhs_step_1 _ _)
  rw [el, er]

/-- The second tile treated, transposed, at (q, c): its row c treated group by group, at column q. -/
theorem wside_at (w : Vec Ideal S1024x1024 .f32) (q c : Fin 1024)
    (ht : S1024x1024.Transposes [1, 0] S1024x1024) (hb : FTy.bits .bf16 < FTy.bits .f32) (hs : S1024x16x64.ShapeCasts S1024x1024) :
    transpose S1024x1024 [1, 0] (truncf .bf16 (shapeCast S1024x1024 (mulf (k0_pay6 w) (k0_pay7 w)) hs) hb) ht (ix2 q c)
      = quantRow h1024 (fun q' => w (ix2 c q')) q := by
  rw [transpose_apply [1, 0] _ ht (ix2 q c) (ix2 c q) (fun b => match b with | ⟨0, _⟩ => rfl | ⟨1, _⟩ => rfl),
    truncf_apply, castOut_at h16, mulf_apply, pay6_at]
  unfold quantRow
  simp only [laneOf_groupOf h16 h1024, laneCol_laneIn h1024]

/-- ONE STEP at (p, c): what the accumulator held there plus the tile product of the step's two tiles. -/
theorem step_at (x w a : Vec Ideal S1024x1024 .f32) (p c : Fin 1024) :
    k0_pay1 (k0_pay3 x) (k0_pay6 w) (k0_pay7 w) a (ix2 p c) = a (ix2 p c) + tileProduct x w (ix2 p c) := by
  unfold k0_pay1
  rw [shapeCast_self, addf_apply, matmul_at]
  unfold tileProduct
  refine congrArg (a (ix2 p c) + ·) (Finset.sum_congr rfl fun q _ => ?_)
  rw [pay3_at, wside_at]

/-- The zero tile a run's first step begins from is 0 everywhere. -/
theorem zero_at (j : S1024x1024.Idx) : k0_pay2 (F := Ideal) j = 0 := by
  unfold k0_pay2
  try dsimp only
  rw [shapeCast_self, broadcast_apply]
  exact Ideal.ofBits_zero_f32

end Cert.KernelIdeal.TileValue

end
-- ==== Proof.Accumulate.lean ====
/-
  A run of four grid steps accumulates the four tile products.

  The grid's points come in runs of four (t, t+1, t+2, t+3 with t divisible by 4) that share one
  output tile and walk the four 1024-wide tiles of the contracted axis. The first step of a run sets
  the accumulator to 0 + P(t), each later step adds its own product P(n) to what the step before left,
  and the last step copies the accumulator to the output tile. So after the last step both hold
  0 + (P(t) + P(t+1) + P(t+2) + P(t+3)), a finite sum in a commutative monoid; here P(n) is the
  product of point n's two treated tiles.
-/
import proofs.«129292_j1176821039703_1_alg».proof.Proof.Gen.KernelIdeal.Value
import proofs.«129292_j1176821039703_1_alg».proof.Proof.Pieces
import proofs.«129292_j1176821039703_1_alg».proof.Proof.TileValue

set_option maxRecDepth 16384

noncomputable section

namespace Cert.KernelIdeal.Accumulate

open Cert.KernelIdeal Cert.KernelIdeal.Gen Cert.KernelIdeal.Value Cert.KernelIdeal.TileValue
open Idealize.ShloMosaic Idealize.ShloMosaic.TcCoe Idealize.SL.Sem Idealize.ShloMosaic.ValueIdx
open Cert.GroupQuant Cert.QuantSpec

variable (m : (ℓ : Loc nD τ sig) → Buf (Elt Ideal) ℓ)

/-- Point t's tile of the first argument, and of the second. -/
abbrev xblk (c : Dev nD) (t : Fin cfg0.N) : Vec Ideal S1024x1024 .f32 := iblk m c 0 t
abbrev wblk (c : Dev nD) (t : Fin cfg0.N) : Vec Ideal S1024x1024 .f32 := iblk m c 1 t

/-- P(n): the product of point n's two treated tiles (0 past the grid, where it is never used). -/
def addend (c : Dev nD) (n : ℕ) : S1024x1024.Idx → Ideal .f32 :=
  if h : n < cfg0.N then tileProduct (xblk m c ⟨n, h⟩) (wblk m c ⟨n, h⟩) else fun _ => 0

theorem addend_of_lt (c : Dev nD) (n : ℕ) (h : n < cfg0.N) :
    addend m c n = tileProduct (xblk m c ⟨n, h⟩) (wblk m c ⟨n, h⟩) := by
  unfold addend; rw [dif_pos h]

/-- One step's stored value at an index: what the accumulator held plus the point's product. -/
theorem step_apply (c : Dev nD) (n : ℕ) (h : n < cfg0.N) (a : Vec Ideal S1024x1024 .f32) (i : S1024x1024.Idx) :
    Pieces.step (xblk m c ⟨n, h⟩) (wblk m c ⟨n, h⟩) a i = a i + addend m c n i := by
  obtain ⟨p, q, rfl⟩ : ∃ (p : Fin 1024) (q : Fin 1024), i = ix2 p q := ⟨i 0, i 1, eq_ix2 i⟩
  rw [addend_of_lt m c n h]
  exact step_at (xblk m c ⟨n, h⟩) (wblk m c ⟨n, h⟩) a p q

/-- A run's first step: 0 + P(n), whatever the accumulator held. -/
theorem first_step (c : Dev nD) (n : ℕ) (h : n < cfg0.N) (h0 : n % 4 = 0) (junk : Vec Ideal S1024x1024 .f32) (i : S1024x1024.Idx) :
    scAt0_0 m c n h junk i = 0 + addend m c n i := by
  have h1 : ¬n % 4 = 3 := by omega
  unfold scAt0_0
  rw [dif_pos h0, dif_neg h1]
  refine (congrFun (Pieces.sout_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (xblk m c ⟨n, h⟩) (wblk m c ⟨n, h⟩)) i).trans ?_
  rw [step_apply m c n h, zero_at]

/-- Every other step of a run: what the step before left, plus P(n). -/
theorem later_step (c : Dev nD) (n : ℕ) (h : n < cfg0.N) (h0 : ¬n % 4 = 0) (a : Vec Ideal S1024x1024 .f32) (i : S1024x1024.Idx) :
    scAt0_0 m c n h a i = a i + addend m c n i := by
  unfold scAt0_0
  rw [dif_neg h0]
  by_cases h1 : n % 4 = 3
  · rw [dif_pos h1]
    refine (congrFun (Pieces.sout_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (xblk m c ⟨n, h⟩) (wblk m c ⟨n, h⟩) a) i).trans ?_
    exact step_apply m c n h a i
  · rw [dif_neg h1]
    refine (congrFun (Pieces.sout_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (xblk m c ⟨n, h⟩) (wblk m c ⟨n, h⟩) a) i).trans ?_
    exact step_apply m c n h a i

/-- THE ACCUMULATOR after a run's last step t (t ≡ 3 mod 4): 0 plus the four products of the run's points. -/
theorem scratch_after_run (c : Dev nD) (t : Fin cfg0.N) (ht : t.val % 4 = 3) (i : S1024x1024.Idx) :
    (outsAt0 m c t.val t.isLt).2 i = 0 + ∑ s ∈ Finset.range 4, addend m c (4 * (t.val / 4) + s) i := by
  rw [soutsAt0_0_eq m c t]
  have hN : cfg0.N = 128 := N_0
  have key := Pipeline.accAt_add_apply (N := cfg0.N)
    (fun n h => scAt0_0 m c n h (VS0_0.read (Elt Ideal) VS0_0.junk)) (scAt0_0 m c) (fun _ => (0 : Ideal .f32)) (addend m c)
    (4 * (t.val / 4)) 3
    (fun h i => first_step m c _ h (by omega) _ i)
    (fun n h a i hb he => later_step m c n h (by omega) a i)
    (t.val % 4) (by omega) (by have := t.isLt; omega) i
  rw [key, ht]

/-- At a run's last step the output tile holds what the accumulator holds. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  exact (Pieces.out_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) _).trans
    (Pieces.sout_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) _).symm

end Cert.KernelIdeal.Accumulate

end
-- ==== Proof.KernelOut.lean ====
/-
  The kernel's result array is the specification.

  The 128 grid points are numbered t = 16 a + 4 b + k : a in [0, 8) is the row tile of the output (and of
  x), b in [0, 4) its column tile (the row tile of w), k in [0, 4) the tile of the contracted axis. Point
  t reads x's block (a, k) and w's block (b, k), and the run's last point (k = 3) writes output block
  (a, b). A tile of a row treated by itself is the row's treated entries on that tile, so the run's four
  products add up to the sum over all 4096 columns: output block (a, b) holds the specification's entries
  there. The 32 written blocks tile the [8192, 4096] result.
-/
import proofs.«129292_j1176821039703_1_alg».proof.Proof.Accumulate

set_option maxRecDepth 16384

noncomputable section

namespace Cert.KernelIdeal.OutValue

open Cert.KernelIdeal Cert.KernelIdeal.Gen Cert.KernelIdeal.Value Cert.KernelIdeal.Accumulate
open Idealize.ShloMosaic Idealize.ShloMosaic.TcCoe Idealize.SL.Sem Idealize.ShloMosaic.ValueIdx
open Idealize.ShloMosaic.Pipeline (Dat)
open Cert.GroupQuant Cert.QuantSpec

variable (m : (ℓ : Loc nD τ sig) → Buf (Elt Ideal) ℓ) (ρ : Dev nD → PrngReg)

/-- The two argument arrays as launched. -/
abbrev X (c : Dev nD) : S8192x4096.Idx → Ideal .f32 := m ((c : Thread nD τ).loc main_arg0)
abbrev W (c : Dev nD) : S4096x4096.Idx → Ideal .f32 := m ((c : Thread nD τ).loc main_arg1)

theorem hN : cfg0.N = 128 := N_0

/-- The printed index maps at point t, decided over the grid: t = 16 a + 4 b + k. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- Row p of point t's row tile, as a row of x and of the result; row r of its column tile, as a row of w and a
    column of the result; and the point's tile of the contracted axis. -/
def rowOf (t : Fin cfg0.N) (p : Fin 1024) : Fin 8192 :=
  ⟨1024 * (t.val / 16) + p.val, by have := t.isLt; have := hN; have := p.isLt; omega⟩
def colOf (t : Fin cfg0.N) (r : Fin 1024) : Fin 4096 :=
  ⟨1024 * (t.val / 4 % 4) + r.val, by have := r.isLt; omega⟩
def kOf (t : Fin cfg0.N) : Fin 4 := ⟨t.val % 4, Nat.mod_lt _ (by decide)⟩

/-- Point t's tile of x, read at (p, q). -/
theorem xblk_at (c : Dev nD) (t : Fin cfg0.N) (p q : Fin 1024) :
    xblk m c t (ix2 p q) = X m c (ix2 (rowOf t p) (tileCol (kOf t) q)) := by
  obtain ⟨e0, e1, e2, e3, e4, e5⟩ := idx_facts t
  show iblk m c 0 t (ix2 p q) = _
  unfold iblk
  rw [View.read_apply]
  show V m c main_arg0 (((cfg0.win 0).blk t).view.emb (ix2 p q)) = V m c main_arg0 (ix2 (rowOf t p) (tileCol (kOf t) q))
  refine congrArg (V m c main_arg0) (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 1024 + 1 * q.val = 1024 * (t.val % 4) + q.val; rw [e1]; omega

/-- Point t's tile of w, read at (r, q). -/
theorem wblk_at (c : Dev nD) (t : Fin cfg0.N) (r q : Fin 1024) :
    wblk m c t (ix2 r q) = W m c (ix2 (colOf t r) (tileCol (kOf t) q)) := by
  obtain ⟨e0, e1, e2, e3, e4, e5⟩ := idx_facts t
  show iblk m c 1 t (ix2 r q) = _
  unfold iblk
  rw [View.read_apply]
  show V m c main_arg1 (((cfg0.win 1).blk t).view.emb (ix2 r q)) = V m c main_arg1 (ix2 (colOf t r) (tileCol (kOf t) q))
  refine congrArg (V m c main_arg1) (funext fun a => Fin.ext ?_)
  match a with
  | ⟨0, _⟩ => show win0_1.index t (0 : Fin 2) * 1024 + 1 * r.val = 1024 * (t.val / 4 % 4) + r.val; rw [e2]; omega
  | ⟨1, _⟩ => show win0_1.index t (1 : Fin 2) * 1024 + 1 * q.val = 1024 * (t.val % 4) + q.val; rw [e3]; omega

/-- The product of point t's two treated tiles at (p, r): over the tile's columns, the whole rows' treated entries. -/
theorem addend_at (c : Dev nD) (t : Fin cfg0.N) (p r : Fin 1024) :
    addend m c t.val (ix2 p r)
      = ∑ q : Fin 1024, quantRow h4096 (fun k => X m c (ix2 (rowOf t p) k)) (tileCol (kOf t) q)
          * quantRow h4096 (fun k => W m c (ix2 (colOf t r) k)) (tileCol (kOf t) q) := by
  rw [addend_of_lt m c t.val t.isLt]
  show tileProduct (xblk m c t) (wblk m c t) (ix2 p r) = _
  unfold tileProduct
  refine Finset.sum_congr rfl fun q _ => ?_
  show quantRow h1024 (fun q' => xblk m c t (ix2 p q')) q * quantRow h1024 (fun q' => wblk m c t (ix2 r q')) q = _
  simp only [xblk_at, wblk_at]
  exact congrArg₂ (· * ·) (quantRow_tile (fun k => X m c (ix2 (rowOf t p) k)) (kOf t) q)
    (quantRow_tile (fun k => W m c (ix2 (colOf t r) k)) (kOf t) q)

/-- The points of t's run share t's row and column tiles; point number s of the run is on tile s. -/
theorem run_point (t : Fin cfg0.N) (ht : t.val % 4 = 3) (s : Fin 4) :
    ∃ u : Fin cfg0.N, u.val = 4 * (t.val / 4) + s.val ∧ (∀ p, rowOf u p = rowOf t p) ∧ (∀ r, colOf u r = colOf t r) ∧ kOf u = s := by
  have := t.isLt; have := hN; have := s.isLt
  refine ⟨⟨4 * (t.val / 4) + s.val, by omega⟩, rfl, fun p => Fin.ext ?_, fun r => Fin.ext ?_, Fin.ext ?_⟩
  · show 1024 * ((4 * (t.val / 4) + s.val) / 16) + p.val = 1024 * (t.val / 16) + p.val; omega
  · show 1024 * ((4 * (t.val / 4) + s.val) / 4 % 4) + r.val = 1024 * (t.val / 4 % 4) + r.val; omega
  · show (4 * (t.val / 4) + s.val) % 4 = s.val; omega

/-- WHAT A RUN'S LAST POINT WRITES, at (p, r): the specification at row `rowOf t p`, column `colOf t r`. -/
theorem out_block_at (c : Dev nD) (t : Fin cfg0.N) (ht : t.val % 4 = 3) (p r : Fin 1024) :
    (outsAt0 m c t.val t.isLt).1 (ix2 p r) = result (X m c) (W m c) (ix2 (rowOf t p) (colOf t r)) := by
  rw [out_eq_scratch m c t (by omega) ht, scratch_after_run m c t ht, zero_add, Finset.sum_range]
  show _ = ∑ k : Fin 4096, quantRow h4096 (fun c' => X m c (ix2 (rowOf t p) c')) k * quantRow h4096 (fun c' => W m c (ix2 (colOf t r) c')) k
  rw [sum_tiles]
  refine Finset.sum_congr rfl fun s _ => ?_
  obtain ⟨u, hu, hr, hc, hk⟩ := run_point t ht s
  rw [← hu, addend_at m c u p r, hk]
  simp only [hr, hc]

/-- What a writing point writes back is its block of the specification. -/
theorem flushed_eq (c : Dev nD) (t : Fin cfg0.N) (hf : (cfg0.win 2).flush t = true) :
    (dats m 0 c).flushed 2 t = ((cfg0.win 2).blk t).view.read (Elt Ideal) (result (X m c) (W m c)) := by
  have ht : t.val % 4 = 3 := (flush0_2 t).mp hf
  obtain ⟨e0, e1, e2, e3, e4, e5⟩ := idx_facts t
  rw [flushed2]
  funext j
  have hj0 : (j 0).val < 1024 := (j 0).isLt
  have hj1 : (j 1).val < 1024 := (j 1).isLt
  show (outsAt0 m c t.val t.isLt).1 j = result (X m c) (W m c) (((cfg0.win 2).blk t).view.emb j)
  have hemb : ((cfg0.win 2).blk t).view.emb j = (ix2 (rowOf t ⟨(j 0).val, hj0⟩) (colOf t ⟨(j 1).val, hj1⟩) : S8192x4096.Idx) :=
    funext fun a => Fin.ext (by
      match a with
      | ⟨0, _⟩ => show win0_2.index t (0 : Fin 2) * 1024 + 1 * (j 0).val = 1024 * (t.val / 16) + (j 0).val; rw [e4]; omega
      | ⟨1, _⟩ => show win0_2.index t (1 : Fin 2) * 1024 + 1 * (j 1).val = 1024 * (t.val / 4 % 4) + (j 1).val; rw [e5]; omega)
  have hj : j = (ix2 (⟨(j 0).val, hj0⟩ : Fin 1024) (⟨(j 1).val, hj1⟩ : Fin 1024) : S1024x1024.Idx) :=
    funext fun a => Fin.ext (by
      match a with
      | ⟨0, _⟩ => rfl
      | ⟨1, _⟩ => rfl)
  rw [hemb]
  exact (congrArg (outsAt0 m c t.val t.isLt).1 hj).trans (out_block_at m c t ht ⟨(j 0).val, hj0⟩ ⟨(j 1).val, hj1⟩)

/-- An index of the result is in point t's block iff each coordinate is in the block's range. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result is in the block of the last point of some run. -/
theorem covered (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have := hN
  refine ⟨⟨16 * ((i 0).val / 1024) + 4 * ((i 1).val / 1024) + 3, by omega⟩, ?_, ?_⟩
  · exact (flush0_2 _).mpr (by show (16 * ((i 0).val / 1024) + 4 * ((i 1).val / 1024) + 3) % 4 = 3; omega)
  · obtain ⟨e0, e1, e2, e3, e4, e5⟩ := idx_facts ⟨16 * ((i 0).val / 1024) + 4 * ((i 1).val / 1024) + 3, by omega⟩
    rw [mem_blk]
    intro a
    match a with
    | ⟨0, _⟩ =>
      show win0_2.index _ (0 : Fin 2) * 1024 ≤ (i 0).val ∧ (i 0).val < win0_2.index _ (0 : Fin 2) * 1024 + 1024
      rw [e4]; dsimp only; omega
    | ⟨1, _⟩ =>
      show win0_2.index _ (1 : Fin 2) * 1024 ≤ (i 1).val ∧ (i 1).val < win0_2.index _ (1 : Fin 2) * 1024 + 1024
      rw [e5]; dsimp only; omega

/-- THE RESULT ARRAY after the run: the specification of the two arguments. -/
theorem final (c : Dev nD) : (dats m 0 c).arrAt 2 cfg0.N = result (X m c) (W m c) :=
  (dats m 0 c).arrAt_eq_of_cover 2 (result (X m c) (W m c)) (fun t hf => flushed_eq m c t hf) covered

/-- The run, read: the result at the specification, the arguments unchanged. -/
theorem run : θ_run defs (onTc (τ := τ) (main (F := Ideal))) ⟨m, fun _ => 0, ρ⟩ fun r => ∀ c : Dev nD,
      r.2.mem ((c : Thread nD τ).loc main_v0) = result (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.OutValue

end
-- ==== Proof.LibGroupQuantHost.lean ====
/-
  The host spelling of the group treatment, whole, read at an index.

  A host program treats an array [R, C], C = 64 * NG, in ten or so operations: reshape to [R, NG, 64];
  the group maxima of the magnitudes by a reduce over axis 2; the step tensor [R, NG, 1] (maxima over
  7, floored); the quotient by the step broadcast along the lanes, rounded to even, clipped into
  [-8, 7] by a maximum and a minimum against broadcast scalars; the product with the broadcast step;
  reshape back. `hostQuant_at` reads that whole term at (r, c): it is row r treated group by group, at
  column c (`quantRow` of the companion file).
-/
import proofs.«129292_j1176821039703_1_alg».proof.Proof.LibGroupQuant

noncomputable section

namespace Cert.GroupQuant

open Idealize.ShloMosaic Idealize.ShloMosaic.ValueIdx

variable {R NG C : Nat}

/-- The host's quotient and its rounding to even, at an index. -/
theorem hostDivf_at {s : Shape} (a b : FVec Ideal s .f32) (i : s.Idx) : Host.divf a b i = Ideal.div (a i) (b i) := rfl
theorem hostRoundeven_at {s : Shape} (a : FVec Ideal s .f32) (i : s.Idx) :
    Host.roundeven a i = Ideal.liftRound Ideal.roundHalfEven (a i) := rfl

/-- The host's step tensor [R, NG, 1] of an array [R, C]. -/
abbrev hostStepTensor (x : FVec Ideal ⟨2, ![R, C]⟩ .f32)
    (hin : (⟨2, ![R, C]⟩ : Shape).ShapeCasts ⟨3, ![R, NG, 64]⟩)
    (hr' : (⟨3, ![R, NG, 64]⟩ : Shape).ReducesTo [2] ⟨2, ![R, NG]⟩) (hu : 0 < (⟨0, ![]⟩ : Shape).numel)
    (hb1 : (⟨2, ![R, NG]⟩ : Shape).BroadcastsInDim ⟨3, ![R, NG, 1]⟩ (![0, 1] : Fin 2 → Fin 3))
    (hbs1 : (⟨0, ![]⟩ : Shape).BroadcastsInDim ⟨3, ![R, NG, 1]⟩ (![] : Fin 0 → Fin 3)) : FVec Ideal ⟨3, ![R, NG, 1]⟩ .f32 :=
  maximumf
    (Host.divf
      (broadcastInDim ⟨3, ![R, NG, 1]⟩ (![0, 1] : Fin 2 → Fin 3) hb1
        (Host.reduce (FloatOps.maximumf (F := Ideal) (φ := .f32)) (Host.absf (shapeCast ⟨3, ![R, NG, 64]⟩ x hin))
          (constant (F := Ideal) ⟨0, ![]⟩ .f32 0xFF800000#32) hr' hu))
      (broadcastInDim ⟨3, ![R, NG, 1]⟩ (![] : Fin 0 → Fin 3) hbs1 (constant (F := Ideal) ⟨0, ![]⟩ .f32 0x40E00000#32)))
    (broadcastInDim ⟨3, ![R, NG, 1]⟩ (![] : Fin 0 → Fin 3) hbs1 (constant (F := Ideal) ⟨0, ![]⟩ .f32 0x322BCC77#32))

/-- It holds, at (r, g, ·), the step of group g of row r. -/
theorem hostStep_at (hC : C = 64 * NG) (x : FVec Ideal ⟨2, ![R, C]⟩ .f32)
    (hin : (⟨2, ![R, C]⟩ : Shape).ShapeCasts ⟨3, ![R, NG, 64]⟩)
    (hr' : (⟨3, ![R, NG, 64]⟩ : Shape).ReducesTo [2] ⟨2, ![R, NG]⟩) (hr : (⟨3, ![R, NG, 64]⟩ : Shape).Reduces [2] ⟨2, ![R, NG]⟩)
    (hu : 0 < (⟨0, ![]⟩ : Shape).numel)
    (hb1 : (⟨2, ![R, NG]⟩ : Shape).BroadcastsInDim ⟨3, ![R, NG, 1]⟩ (![0, 1] : Fin 2 → Fin 3))
    (hbs1 : (⟨0, ![]⟩ : Shape).BroadcastsInDim ⟨3, ![R, NG, 1]⟩ (![] : Fin 0 → Fin 3))
    (r : Fin R) (g : Fin NG) (z : Fin 1) :
    hostStepTensor x hin hr' hu hb1 hbs1 (ix3 r g z) = groupStep (fun l => x (ix2 r (laneOf hC g l))) := by
  unfold hostStepTensor
  rw [maximumf_apply, hostDivf_at, hostCol_at, hostAbsMax_at _ hr' hr hu, hostScalar_at, hostScalar_at, constant_apply, constant_apply]
  unfold groupStep
  simp only [castIn_at hC]

/-- THE HOST TREATMENT, WHOLE, at (r, c): row r treated group by group, at column c. -/
theorem hostQuant_at (hC : C = 64 * NG) (hC' : C % 64 = 0) (x : FVec Ideal ⟨2, ![R, C]⟩ .f32)
    (hin : (⟨2, ![R, C]⟩ : Shape).ShapeCasts ⟨3, ![R, NG, 64]⟩)
    (hr' : (⟨3, ![R, NG, 64]⟩ : Shape).ReducesTo [2] ⟨2, ![R, NG]⟩) (hr : (⟨3, ![R, NG, 64]⟩ : Shape).Reduces [2] ⟨2, ![R, NG]⟩)
    (hu : 0 < (⟨0, ![]⟩ : Shape).numel)
    (hb1 : (⟨2, ![R, NG]⟩ : Shape).BroadcastsInDim ⟨3, ![R, NG, 1]⟩ (![0, 1] : Fin 2 → Fin 3))
    (hbs1 : (⟨0, ![]⟩ : Shape).BroadcastsInDim ⟨3, ![R, NG, 1]⟩ (![] : Fin 0 → Fin 3))
    (hb2 : (⟨3, ![R, NG, 1]⟩ : Shape).BroadcastsInDim ⟨3, ![R, NG, 64]⟩ (![0, 1, 2] : Fin 3 → Fin 3))
    (hbs2 : (⟨0, ![]⟩ : Shape).BroadcastsInDim ⟨3, ![R, NG, 64]⟩ (![] : Fin 0 → Fin 3))
    (hout : (⟨3, ![R, NG, 64]⟩ : Shape).ShapeCasts ⟨2, ![R, C]⟩) (r : Fin R) (c : Fin C) :
    shapeCast ⟨2, ![R, C]⟩
      (mulf
        (minimumf (broadcastInDim ⟨3, ![R, NG, 64]⟩ (![] : Fin 0 → Fin 3) hbs2 (id (constant (F := Ideal) ⟨0, ![]⟩ .f32 0x40E00000#32)))
          (maximumf (broadcastInDim ⟨3, ![R, NG, 64]⟩ (![] : Fin 0 → Fin 3) hbs2 (id (constant (F := Ideal) ⟨0, ![]⟩ .f32 0xC1000000#32)))
            (Host.roundeven (Host.divf (shapeCast ⟨3, ![R, NG, 64]⟩ x hin)
              (broadcastInDim ⟨3, ![R, NG, 64]⟩ (![0, 1, 2] : Fin 3 → Fin 3) hb2 (hostStepTensor x hin hr' hu hb1 hbs1))))))
        (broadcastInDim ⟨3, ![R, NG, 64]⟩ (![0, 1, 2] : Fin 3 → Fin 3) hb2 (hostStepTensor x hin hr' hu hb1 hbs1)))
      hout (ix2 r c)
      = quantRow hC' (fun c' => x (ix2 r c')) c := by
  rw [castOut_at hC, mulf_apply, minimumf_apply, maximumf_apply, hostScalar_at, hostScalar_at, hostRoundeven_at, hostDivf_at,
    hostLanes_at, hostStep_at hC x hin hr' hr hu hb1 hbs1, castIn_at hC]
  unfold quantRow quantAt
  simp only [id, constant_apply, laneOf_groupOf hC hC', laneCol_laneIn hC']

end Cert.GroupQuant

end
-- ==== Proof.RefValue.lean ====
/-
  The reference's result is the specification.

  The reference treats the whole of x ([8192, 4096]) and the whole of w ([4096, 4096]) group by group
  along their rows, transposes the treated w, and contracts: entry (t, o) is the sum over the 4096
  columns k of the treated x at (t, k) times the treated w at (o, k). Each treated array, read at an
  index, is the row treated group by group (the host spelling of the treatment, read whole).
-/
import proofs.«129292_j1176821039703_1_alg».proof.Proof.Gen.ReferenceIdeal.Read
import proofs.«129292_j1176821039703_1_alg».proof.Proof.LibGroupQuantHost
import proofs.«129292_j1176821039703_1_alg».proof.Proof.QuantSpec

noncomputable section

namespace Cert.ReferenceIdeal.RefValue

open Cert.ReferenceIdeal Cert.ReferenceIdeal.Gen Cert.ReferenceIdeal.Read
open Idealize.ShloMosaic Idealize.ShloMosaic.ValueIdx Cert.GroupQuant Cert.QuantSpec

theorem h64 : 4096 = 64 * 64 := rfl

/-- The treated first argument (the reference's %14) at (t, k): row t of x treated, at column k. -/
theorem xq_at (x0 : (⟨S8192x4096, .f32⟩ : BufTy).Contents (Elt Ideal)) (t : Fin 8192) (k : Fin 4096) :
    val_main_v14 (F := Ideal) x0 (ix2 t k) = quantRow h4096 (fun c => x0 (ix2 t c)) k :=
  hostQuant_at (R := 8192) (NG := 64) (C := 4096) h64 h4096 x0 _ _ (by decide) _ _ _ _ _ _ t k

/-- The treated second argument before its transposition (the reference's %29) at (o, k). -/
theorem wq_at (x1 : (⟨S4096x4096, .f32⟩ : BufTy).Contents (Elt Ideal)) (o : Fin 4096) (k : Fin 4096) :
    val_main_v29 (F := Ideal) x1 (ix2 o k) = quantRow h4096 (fun c => x1 (ix2 o c)) k :=
  hostQuant_at (R := 4096) (NG := 64) (C := 4096) h64 h4096 x1 _ _ (by decide) _ _ _ _ _ _ o k

/-- Transposed (the reference's %30), at (k, o): the same entry. -/
theorem wqT_at (x1 : (⟨S4096x4096, .f32⟩ : BufTy).Contents (Elt Ideal)) (k : Fin 4096) (o : Fin 4096) :
    val_main_v30 (F := Ideal) x1 (ix2 k o) = quantRow h4096 (fun c => x1 (ix2 o c)) k := by
  rw [val_main_v30_apply]
  have e : idx_main_v30 (ix2 k o) = ix2 o k := funext fun a => Fin.ext (by
    match a with
    | ⟨0, _⟩ => rfl
    | ⟨1, _⟩ => rfl)
  rw [e]
  exact wq_at x1 o k

/-- THE REFERENCE'S RESULT as one function of its two arguments. -/
theorem ref_eq_result (x0 : (⟨S8192x4096, .f32⟩ : BufTy).Contents (Elt Ideal)) (x1 : (⟨S4096x4096, .f32⟩ : BufTy).Contents (Elt Ideal)) :
    val_main_v31 (F := Ideal) x0 x1 = result x0 x1 := by
  funext i
  rw [val_main_v31_apply]
  unfold result
  refine Finset.sum_congr rfl fun k _ => ?_
  have el : lidx_main_v31 i k = (ix2 (i 0) k : S8192x4096.Idx) := funext fun a => Fin.ext (by
    match a with
    | ⟨0, _⟩ => rfl
    | ⟨1, _⟩ => rfl)
  have er : ridx_main_v31 i k = (ix2 k (i 1) : S4096x4096.Idx) := funext fun a => Fin.ext (by
    match a with
    | ⟨0, _⟩ => rfl
    | ⟨1, _⟩ => rfl)
  exact congrArg₂ (· * ·) ((congrArg (val_main_v14 (F := Ideal) x0) el).trans (xq_at x0 (i 0) k))
    ((congrArg (val_main_v30 (F := Ideal) x1) er).trans (wqT_at x1 k (i 1)))

end Cert.ReferenceIdeal.RefValue

end
-- ==== Proof.lean ====
/-
  A blocked matrix product with both operands quantized to 4 bits in groups of 64, against the plain
  product of the two quantized arrays.

  Write Q(a) for an array whose every row is cut into groups of 64 consecutive entries, each group
  replaced by  clip(roundeven(v / s), -8, 7) * s  with s = max(max|v| / 7, 1e-8) taken over the group.
  The reference computes  Q(x) * Q(w)^T : entry (t, o) = sum over k < 4096 of Q(x)(t, k) * Q(w)(o, k).

  The kernel walks a grid of 8 x 4 x 4 points. At point (a, b, k) it holds the 1024 x 1024 tile (a, k) of x
  and tile (b, k) of w, treats each tile by itself, and adds the product of the treated tiles into an
  accumulator that it zeroes at k = 0 and copies to output tile (a, b) at k = 3. Two facts make the two
  programs one function over the extended reals. (1) A group of 64 never straddles a multiple of 1024, so
  a tile treated by itself holds exactly the entries of Q of the whole array on that tile. (2) The
  accumulator ends at 0 + (P0 + P1 + P2 + P3) with P_k the k-th tile's product, and a sum over 4096
  columns is the sum over four tiles of each tile's sum over 1024 columns; this is regrouping of a
  finite sum, valid in any commutative monoid, so no entry needs to be finite and the precondition is
  never opened. The narrowing of the treated tiles to bf16 before the product is the identity at this
  instance.

  The two kernel programs' frames are the generated ones; the reference's frame is its generated run
  with the result dropped; the idealization rewrote nothing, so `preserves` is trivial.
-/
import proofs.«129292_j1176821039703_1_alg».proof.Defs
import proofs.«129292_j1176821039703_1_alg».proof.Proof.Gen.Kernel
import proofs.«129292_j1176821039703_1_alg».proof.Proof.Gen.Kernel.Skeleton
import proofs.«129292_j1176821039703_1_alg».proof.Proof.Gen.Kernel.Launch
import proofs.«129292_j1176821039703_1_alg».proof.Proof.Gen.Kernel.Points
import proofs.«129292_j1176821039703_1_alg».proof.Proof.Gen.Kernel.Frame
import proofs.«129292_j1176821039703_1_alg».proof.Proof.Gen.KernelIdeal
import proofs.«129292_j1176821039703_1_alg».proof.Proof.Gen.KernelIdeal.Skeleton
import proofs.«129292_j1176821039703_1_alg».proof.Proof.Gen.KernelIdeal.Launch
import proofs.«129292_j1176821039703_1_alg».proof.Proof.Gen.KernelIdeal.Points
import proofs.«129292_j1176821039703_1_alg».proof.Proof.Gen.KernelIdeal.Frame
import proofs.«129292_j1176821039703_1_alg».proof.Proof.Gen.ReferenceIdeal
import proofs.«129292_j1176821039703_1_alg».proof.Proof.Gen.Pre_finite_inputs
import proofs.«129292_j1176821039703_1_alg».proof.Proof.Gen.KernelIdeal.Value
import proofs.«129292_j1176821039703_1_alg».proof.Proof.Gen.ReferenceIdeal.Run
import proofs.«129292_j1176821039703_1_alg».proof.Proof.Gen.ReferenceIdeal.Read
import proofs.«129292_j1176821039703_1_alg».proof.Proof.KernelOut
import proofs.«129292_j1176821039703_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the specification of the two arguments, which agree. -/
theorem algebraic : Cert.algebraic_KernelIdeal_ReferenceIdeal := by
  intro m ρ m' ρ' _ hagree
  refine ⟨_, Cert.KernelIdeal.OutValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_eq_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
